-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4096x8192 : Shape := ⟨2, ![4096, 8192]⟩
abbrev S_ : Shape := ⟨0, ![]⟩

class Facts : Prop where

variable [Facts]

def fn {F : FTy → Type} [FloatOps F] (main_arg0 : IVec S4096x8192 32) (main_arg1 : IVec S4096x8192 1) : IVec S_ 1 :=
  let main_c : IVec S_ 1 := constantI S_ 1 1#1
  main_c
-- ==== Kernel.lean ====
abbrev S4096x8192 : Shape := ⟨2, ![4096, 8192]⟩
abbrev S256x8192 : Shape := ⟨2, ![256, 8192]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .i32⟩
  | .hbm, ⟨1, _⟩ => ⟨S4096x8192, .i1⟩
  | .hbm, ⟨2, _⟩ => ⟨S4096x8192, .i32⟩
  | .hbm, ⟨3, _⟩ => ⟨S4096x8192, .i32⟩
  | .local _ .vmem, ⟨0, _⟩ => ⟨S256x8192, .i32⟩
  | .local _ .vmem, ⟨1, _⟩ => ⟨S256x8192, .i32⟩
  | .local _ .vmem, ⟨2, _⟩ => ⟨S256x8192, .i32⟩
  | .local _ .vmem, ⟨3, _⟩ => ⟨S256x8192, .i32⟩
  | .local _ .vmem, ⟨4, _⟩ => ⟨S256x8192, .i32⟩
  | .local _ .vmem, ⟨5, _⟩ => ⟨S256x8192, .i32⟩
  | _, _ => ⟨S4096x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .i32 = 32 ∨ (Rect.block (s := S4096x8192) S256x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .i32 = 32 ∨ (Rect.block (s := S4096x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S4096x8192.size a
  hwx0_2 : ∀ i : grid0.Coords, EltTy.bits .i32 = 32 ∨ (Rect.block (s := S4096x8192) S256x8192.size (cc0_transform_2 i) (hinb0_2 i)).WholeWords (EltTy.packing .i32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .i32⟩
  | .hbm, ⟨1, _⟩ => ⟨S4096x8192, .i1⟩
  | .hbm, ⟨2, _⟩ => ⟨S_, .i32⟩
  | .hbm, ⟨3, _⟩ => ⟨S4096x8192, .i32⟩
  | .hbm, ⟨4, _⟩ => ⟨S4096x8192, .i32⟩
  | _, _ => ⟨S4096x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)

variable [Facts₀]

class Facts : Prop extends Facts₀ where

variable [Facts]
-- ==== Proof.FillLaw.lean ====
/-
  The masked fill, as one function of a token array and a one-bit mask array, and the one law of words that the
  two programs differ by.

  The mask reaches the kernel's body widened: each one-bit word `b` has become the 32-bit word whose lowest bit is
  `b` and whose other 31 bits are zero, and the body decides "is this position masked" by testing that word against
  zero for inequality.  The reference selects on the bit `b` itself.  The two tests agree on both values of `b`:
  the widening of `0` is the zero word, which is not different from zero, so the test returns `0`; the widening of `1`
  is the word `1`, which is different from zero, so the test returns `1`.  In both cases the test returns `b`.
-/
import Idealize.ShloMosaic.PureOps
import Idealize.ShloMosaic.Lib.ValueIdx

namespace Cert.MaskedFill

open Idealize.ShloMosaic

/-- Testing a zero-extended bit against the zero word for inequality gives the bit back (both values of the
    bit, by evaluation). -/
theorem widened_ne_zero (b : BitVec 1) : IntOp.cmpi .ne (b.setWidth 32) 0#32 = b := by
  revert b; decide

/-- THE MASKED FILL of a token array `x` under a mask `mk`, index by index: the fill word `22` where the mask's bit
    is set, the token itself elsewhere. -/
def fill (S : Shape) (x : IVec S 32) (mk : IVec S 1) : IVec S 32 :=
  fun i => Scalar.select (mk i) 22#32 (x i)

/-- Selecting on "the widened bit is not zero" is selecting on the bit. -/
theorem select_widened (b : BitVec 1) (x : BitVec 32) :
    Scalar.select (IntOp.cmpi .ne (b.setWidth 32) 0#32) 22#32 x = Scalar.select b 22#32 x := by
  rw [widened_ne_zero]

end Cert.MaskedFill
-- ==== Proof.KernelFill.lean ====
/-
  What the kernel leaves in its result array: the masked fill of its two arguments.

  The pallas_call walks 16 grid points.  At point `t` each of its three windows is at row-block `t`, column-block
  `0`: a block is 256 whole rows (256 x 8192), the tokens', the widened mask's and the result's alike.  The body
  loads the token block and the widened-mask block whole, and stores whole, at each position `j` of the block, the
  word `22` where the widened-mask word is not zero and the token elsewhere.  So what point `t` writes back is the
  restriction to rows `256 t .. 256 t + 255` of ONE whole-array function of the staged arrays (`perIndex`), and the
  16 blocks tile the 4096 rows: row `r` lies in the block of point `r / 256`.  The result array therefore ends
  holding that function everywhere.

  The second staged array is not an argument: a host operation before the call widens the mask, each one-bit word
  to 32 bits with zeros above.  Reading it back (`widened_mask`) and the law of words of `FillLaw` turn the body's
  test "the widened word is not zero" into the mask's bit, and the whole-array function into the masked fill.
-/
import proofs.«100894_j13950053778295_1_alg».proof.Proof.Gen.KernelIdeal.Value
import proofs.«100894_j13950053778295_1_alg».proof.Proof.FillLaw
import Idealize.ShloMosaic.Lib.StableHlo.Run

noncomputable section

namespace Cert.KernelIdeal.FillValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's loads and its store start at the block's origin. -/
theorem origin : (![0, 0] : Fin 2 → Nat) = fun _ => 0 := funext fun a => by fin_cases a <;> rfl

/-- The body's arithmetic at one index of the arrays its windows stage: `22` where the second array's word is
    not zero, the first array's word elsewhere. -/
abbrev perIndex (tok : S4096x8192.Idx → Elt F .i32) (wide : S4096x8192.Idx → Elt F .i32) : S4096x8192.Idx → Elt F .i32 :=
  fun i => Scalar.select (IntOp.cmpi .ne (wide i) 0#32) 22#32 (tok i)

/-- The stored value, position by position of the block, is that arithmetic of the two loaded blocks. -/
theorem stored_eq (x0 : Vec F S256x8192 .i32) (x1 : Vec F S256x8192 .i32) :
    k0_pay1 x0 x1 = fun j => Scalar.select (IntOp.cmpi .ne (x1 j) 0#32) 22#32 (x0 j) := rfl

/-- The three windows move together (decided over the 16 points): at every point the tokens' and the widened
    mask's block indices are the result's, the result's row-block index is at most 15 and its column-block
    index is 0. -/
theorem together : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15
    ∧ win0_2.index t (1 : Fin 2) = 0 :=
  (by decide +kernel : ∀ t : Fin grid0.N, _)

/-- Every one of the 16 row-blocks is some point's. -/
theorem rowBlock_onto : ∀ q : Fin 16, ∃ t : Fin cfg0.N, win0_2.index t (0 : Fin 2) = q.val ∧ win0_2.index t (1 : Fin 2) = 0 :=
  (by decide +kernel : ∀ q : Fin 16, ∃ t : Fin grid0.N, win0_2.index t (0 : Fin 2) = q.val ∧ win0_2.index t (1 : Fin 2) = 0)

/-- WHAT POINT `t` WRITES BACK is block `t` of `perIndex` of the two staged arrays as the call finds them: the
    input blocks are read at the very array indices the result's block covers. -/
theorem written_eq (c : Dev nD) (t : Fin cfg0.N) :
    (dats m 0 c).flushed 2 t = ((cfg0.win 2).blk t).view.read (Elt F) (perIndex (V m c main_arg0) (V m c main_v0)) := by
  rw [Value.flushed2]
  unfold out0_2
  rw [View.canon_unit_zero origin]
  simp only [View.ld_unit_zero (S := S256x8192) origin]
  rw [stored_eq]
  obtain ⟨e0, e1, e2, e3, e4, e5⟩ := together t
  funext j
  show Scalar.select (IntOp.cmpi .ne (V m c main_v0 (((cfg0.win 1).blk t).view.emb j)) 0#32) 22#32 (V m c main_arg0 (((cfg0.win 0).blk t).view.emb j))
    = Scalar.select (IntOp.cmpi .ne (V m c main_v0 (((cfg0.win 2).blk t).view.emb j)) 0#32) 22#32 (V m c main_arg0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 8192 + 1 * (j 1).val = win0_2.index t (1 : Fin 2) * 8192 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 8192 + 1 * (j 1).val = win0_2.index t (1 : Fin 2) * 8192 + 1 * (j 1).val; omega
  rw [h0, h1]

/-- An index of the result array is in point `t`'s block iff each coordinate is in the block's range on its axis. -/
theorem mem_block (t : Fin cfg0.N) (i : S4096x8192.Idx) :
    i ∈ ((cfg0.win 2).blk t).view.set ↔ ∀ a : Fin 2, win0_2.index t a * S256x8192.size a ≤ (i a).val ∧ (i a).val < win0_2.index t a * S256x8192.size a + S256x8192.size a := by
  show i ∈ ((View.whole main_v1).slice (win0_2.rect t)).set ↔ _
  rw [View.set_slice_whole, Rect.mem_set_unit]
  exact Iff.rfl

/-- THE BLOCKS TILE THE ARRAY: row `r` is in the block of the point whose row-block index is `r / 256`, and every
    column is in column-block `0`. -/
theorem covered (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, q0, q1⟩ := rowBlock_onto ⟨(i 0).val / 256, by omega⟩
  have q0' : win0_2.index t (0 : Fin 2) = (i 0).val / 256 := q0
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 8192 ≤ (i 1).val ∧ (i 1).val < win0_2.index t (1 : Fin 2) * 8192 + 8192; omega

/-- The array the second window stages is the mask argument widened by the host operation before the call: each
    one-bit word zero-extended to 32 bits. -/
theorem widened_mask (c : Dev nD) :
    (V m c main_v0 : S4096x8192.Idx → BitVec 32) = extui 32 (m ((c : Thread nD τ).loc main_arg1)) natLt_1_32 := by
  dsimp only [Gen.V, Gen.hostOps0]; after_results

/-- THE RESULT ARRAY after the run is the masked fill of the two arguments as launched. -/
theorem final (c : Dev nD) :
    (dats m 0 c).arrAt 2 cfg0.N
      = MaskedFill.fill S4096x8192 (m ((c : Thread nD τ).loc main_arg0)) (m ((c : Thread nD τ).loc main_arg1)) := by
  rw [(dats m 0 c).arrAt_eq_of_cover 2 _ (fun t _ => written_eq m c t) covered, V_main_arg0, widened_mask]
  funext i
  exact MaskedFill.select_widened _ _

/-- The kernel's run, read: every weakly fair execution ends with the result array at the masked fill of the
    arguments and the arguments unchanged. -/
theorem run : θ_run defs (onTc (τ := τ) (main (F := F))) ⟨m, fun _ => 0, ρ⟩ fun r => ∀ c : Dev nD,
      r.2.mem ((c : Thread nD τ).loc main_v1)
        = MaskedFill.fill S4096x8192 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.FillValue

end
-- ==== Proof.ReferenceFill.lean ====
/-
  What the reference computes: the masked fill of its two arguments.

  Its run ends with the result at `select mask (the scalar 22 broadcast to the array's shape) tokens`.  Read at an
  index `i`: the broadcast of a scalar is that scalar at every index, and the scalar is the word `22`, so the
  result at `i` is `22` where the mask's bit at `i` is set and the token at `i` elsewhere, which is the masked fill by
  definition.
-/
import proofs.«100894_j13950053778295_1_alg».proof.Proof.Gen.ReferenceIdeal.Run
import proofs.«100894_j13950053778295_1_alg».proof.Proof.Gen.ReferenceIdeal.Read
import proofs.«100894_j13950053778295_1_alg».proof.Proof.FillLaw
import Idealize.ShloMosaic.PureOps.Ideal

noncomputable section

namespace Cert.ReferenceIdeal.FillValue

open Cert.ReferenceIdeal Cert.ReferenceIdeal.Gen Idealize.ShloMosaic Idealize.ShloMosaic.TcCoe Idealize.SL.Sem

/-- The term the reference's run ends at is the masked fill: read stage by stage at an index, the select's second
    operand is the broadcast scalar `22`. -/
theorem result_eq (tok : IVec S4096x8192 32) (mk : IVec S4096x8192 1) :
    select mk (broadcastInDim S4096x8192 ![] bcast_S_S4096x8192 (constantI S_ 32 22#32)) tok
      = MaskedFill.fill S4096x8192 tok mk := by
  rw [Read.val_main_v0_eq (F := Ideal)]
  funext i
  rw [Read.val_main_v0_apply, Read.val_main_call0_v0_apply, Read.val_main_c_apply]
  rfl

end Cert.ReferenceIdeal.FillValue

end
-- ==== Proof.lean ====
/-
  Masked fill of a token array — `out = where(mask, 22, tokens)` over int32[4096, 8192] with a one-bit mask of the
  same shape — as a Pallas kernel against `jnp.where`: the five claims.

  The kernel: a host operation widens the mask (each one-bit word zero-extended to 32 bits), then one pallas_call
  walks 16 blocks of 256 whole rows, and its body stores `22` where the widened-mask word is not zero and the token
  elsewhere.  The reference: `select mask (22 broadcast) tokens`.  Everything here is integer words, so reading the
  programs at the ideal instance changes nothing, the ideal pass rewrote nothing (`preserves` is `True`), and no
  precondition is used.

  Why the results are equal: at every index the kernel selects on "the zero-extension of the mask's bit is not
  zero", the reference on the bit; these are the same test (`Cert.MaskedFill.widened_ne_zero`, both values of the
  bit).  Both runs are therefore stated with ONE result, the masked fill `Cert.MaskedFill.fill` of the arguments:
  the kernel's from its 16 written-back blocks, which are restrictions of one whole-array function and tile the rows
  (`Cert.KernelIdeal.FillValue.run`), the reference's from its run read stage by stage at an index
  (`Cert.ReferenceIdeal.FillValue.result_eq`).

  The three frames: the two kernel programs' are their launch-and-body frames (loads and one covering store through
  whole-block rectangles); the reference has no kernel, and its frame is its run with the result forgotten.
-/
import proofs.«100894_j13950053778295_1_alg».proof.Defs
import proofs.«100894_j13950053778295_1_alg».proof.Proof.Gen.Kernel
import proofs.«100894_j13950053778295_1_alg».proof.Proof.Gen.Kernel.Skeleton
import proofs.«100894_j13950053778295_1_alg».proof.Proof.Gen.Kernel.Launch
import proofs.«100894_j13950053778295_1_alg».proof.Proof.Gen.Kernel.Points
import proofs.«100894_j13950053778295_1_alg».proof.Proof.Gen.Kernel.Frame
import proofs.«100894_j13950053778295_1_alg».proof.Proof.Gen.KernelIdeal
import proofs.«100894_j13950053778295_1_alg».proof.Proof.Gen.KernelIdeal.Skeleton
import proofs.«100894_j13950053778295_1_alg».proof.Proof.Gen.KernelIdeal.Launch
import proofs.«100894_j13950053778295_1_alg».proof.Proof.Gen.KernelIdeal.Points
import proofs.«100894_j13950053778295_1_alg».proof.Proof.Gen.KernelIdeal.Frame
import proofs.«100894_j13950053778295_1_alg».proof.Proof.Gen.ReferenceIdeal
import proofs.«100894_j13950053778295_1_alg».proof.Proof.Gen.Pre_any_inputs
import proofs.«100894_j13950053778295_1_alg».proof.Proof.Gen.KernelIdeal.Value
import proofs.«100894_j13950053778295_1_alg».proof.Proof.Gen.ReferenceIdeal.Run
import proofs.«100894_j13950053778295_1_alg».proof.Proof.Gen.ReferenceIdeal.Read
import proofs.«100894_j13950053778295_1_alg».proof.Proof.KernelFill
import proofs.«100894_j13950053778295_1_alg».proof.Proof.ReferenceFill
import Idealize.ShloMosaic.Adequacy
import Idealize.ShloMosaic.Init

noncomputable section

namespace Cert.Proof

open Idealize.ShloMosaic Idealize.ShloMosaic.TcCoe Idealize.SL.Sem

/-- The kernel as printed, at the word level: it runs and leaves its arguments as they were. -/
theorem frame_kernel : Cert.frame_Kernel := fun m ρ _ => Cert.Kernel.Gen.frame m ρ

/-- The same of the kernel read at the ideal instance. -/
theorem frame_kernelIdeal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the tokens and the mask, both programs end with the masked fill of those arguments:
    the kernel's result array by its blocks, the reference's by its term read at an index; the arguments'
    agreement carries the one to the other. -/
theorem algebraic : Cert.algebraic_KernelIdeal_ReferenceIdeal := by
  intro m ρ m' ρ' _ hagree
  refine ⟨_, Cert.KernelIdeal.FillValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.FillValue.result_eq _ _

theorem claim : Cert.Claim :=
  ⟨Cert.Kernel.Gen.facts, Cert.KernelIdeal.Gen.facts, Cert.ReferenceIdeal.Gen.facts, Cert.Pre_any_inputs.Gen.facts,
    frame_kernel, frame_kernelIdeal, frame_reference, trivial, algebraic⟩

end Cert.Proof

end
